-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1024 : Shape := ⟨2, ![262144, 1024]⟩
abbrev S262144 : Shape := ⟨1, ![262144]⟩
abbrev S8x32x1024 : Shape := ⟨3, ![8, 32, 1024]⟩
abbrev S8x32 : Shape := ⟨2, ![8, 32]⟩
abbrev S_ : Shape := ⟨0, ![]⟩

class Facts : Prop where
  bcast_S_S262144x1024 : S_.BroadcastsInDim S262144x1024 (![] : Fin 0 → Fin S262144x1024.rank)
  reducesTo_S262144x1024_S_d0_1 : S262144x1024.ReducesTo [0, 1] S_
  h_S_ : 0 < S_.numel
  bcast_S_S8x32x1024 : S_.BroadcastsInDim S8x32x1024 (![] : Fin 0 → Fin S8x32x1024.rank)
  reducesTo_S8x32x1024_S_d0_1_2 : S8x32x1024.ReducesTo [0, 1, 2] S_
  bcast_S_S8x32 : S_.BroadcastsInDim S8x32 (![] : Fin 0 → Fin S8x32.rank)
  reducesTo_S8x32_S_d0_1 : S8x32.ReducesTo [0, 1] S_
  bcast_S_S262144 : S_.BroadcastsInDim S262144 (![] : Fin 0 → Fin S262144.rank)
  reducesTo_S262144_S_d0 : S262144.ReducesTo [0] S_

variable [Facts]

def fn_part1 {F : FTy → Type} [FloatOps F] (main_arg1 : IVec S262144 32) (main_v13 : IVec S_ 1) (main_v15 : IVec S262144 1) (main_c_5 : IVec S_ 1) : IVec S_ 1 :=
  let main_v16 : IVec S_ 1 := (fun x v => Host.reduce IntOp.andi x v reducesTo_S262144_S_d0 h_S_) main_v15 main_c_5
  let main_v17 : IVec S_ 1 := andi main_v13 main_v16
  let main_c_6 : IVec S_ 32 := constantI S_ 32 8#32
  let main_v18 : IVec S262144 32 := broadcastInDim S262144 ![] bcast_S_S262144 main_c_6
  let main_v19 : IVec S262144 1 := cmpi .slt main_arg1 main_v18
  let main_c_7 : IVec S_ 1 := constantI S_ 1 1#1
  let main_v20 : IVec S_ 1 := (fun x v => Host.reduce IntOp.andi x v reducesTo_S262144_S_d0 h_S_) main_v19 main_c_7
  let main_v21 : IVec S_ 1 := andi main_v17 main_v20
  main_v21

def fn {F : FTy → Type} [FloatOps F] (main_arg0 : FVec F S262144x1024 .f32) (main_arg1 : IVec S262144 32) (main_arg2 : FVec F S8x32x1024 .f32) (main_arg3 : FVec F S8x32 .f32) : IVec S_ 1 :=
  let main_v0 : FVec F S262144x1024 .f32 := Host.absf main_arg0
  let main_cst : FVec F S_ .f32 := constant S_ .f32 0x7F800000#32
  let main_v1 : FVec F S262144x1024 .f32 := broadcastInDim S262144x1024 ![] bcast_S_S262144x1024 main_cst
  let main_v2 : IVec S262144x1024 1 := cmpf .olt main_v0 main_v1
  let main_c : IVec S_ 1 := constantI S_ 1 1#1
  let main_v3 : IVec S_ 1 := (fun x v => Host.reduce IntOp.andi x v reducesTo_S262144x1024_S_d0_1 h_S_) main_v2 main_c
  let main_v4 : FVec F S8x32x1024 .f32 := Host.absf main_arg2
  let main_cst_0 : FVec F S_ .f32 := constant S_ .f32 0x7F800000#32
  let main_v5 : FVec F S8x32x1024 .f32 := broadcastInDim S8x32x1024 ![] bcast_S_S8x32x1024 main_cst_0
  let main_v6 : IVec S8x32x1024 1 := cmpf .olt main_v4 main_v5
  let main_c_1 : IVec S_ 1 := constantI S_ 1 1#1
  let main_v7 : IVec S_ 1 := (fun x v => Host.reduce IntOp.andi x v reducesTo_S8x32x1024_S_d0_1_2 h_S_) main_v6 main_c_1
  let main_v8 : IVec S_ 1 := andi main_v3 main_v7
  let main_v9 : FVec F S8x32 .f32 := Host.absf main_arg3
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg1 main_v14
  let main_c_5 : IVec S_ 1 := constantI S_ 1 1#1
  fn_part1 (F := F) main_arg1 main_v13 main_v15 main_c_5
-- ==== Kernel.lean ====
abbrev S262144x1024 : Shape := ⟨2, ![262144, 1024]⟩
abbrev S262144 : Shape := ⟨1, ![262144]⟩
abbrev S8x32x1024 : Shape := ⟨3, ![8, 32, 1024]⟩
abbrev S8x32 : Shape := ⟨2, ![8, 32]⟩
abbrev S_ : Shape := ⟨0, ![]⟩
abbrev S262144x1 : Shape := ⟨2, ![262144, 1]⟩
abbrev S256x1024 : Shape := ⟨2, ![256, 1024]⟩
abbrev S1024x256 : Shape := ⟨2, ![1024, 256]⟩
abbrev S1x256 : Shape := ⟨2, ![1, 256]⟩
abbrev S262144x32 : Shape := ⟨2, ![262144, 32]⟩
abbrev S2048x1024 : Shape := ⟨2, ![2048, 1024]⟩
abbrev S2048x1 : Shape := ⟨2, ![2048, 1]⟩
abbrev S2048x32 : Shape := ⟨2, ![2048, 32]⟩
abbrev S2048x256 : Shape := ⟨2, ![2048, 256]⟩
abbrev S1x32 : Shape := ⟨2, ![1, 32]⟩

abbrev nBuf : Space → Nat
  | .hbm => 18
  | .vmem => 8
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S8x32x1024, .f32⟩
  | .hbm, ⟨3, _⟩ => ⟨S8x32, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S256x1024, .f32⟩
  | .hbm, ⟨14, _⟩ => ⟨S1024x256, .f32⟩
  | .hbm, ⟨15, _⟩ => ⟨S1024x256, .bf16⟩
  | .hbm, ⟨16, _⟩ => ⟨S1x256, .f32⟩
  | .hbm, ⟨17, _⟩ => ⟨S262144x32, .f32⟩
  | .local _ .vmem, ⟨0, _⟩ => ⟨S2048x1024, .f32⟩
  | .local _ .vmem, ⟨1, _⟩ => ⟨S2048x1024, .f32⟩
  | .local _ .vmem, ⟨2, _⟩ => ⟨S2048x1, .i32⟩
  | .local _ .vmem, ⟨3, _⟩ => ⟨S2048x1, .i32⟩
  | .local _ .vmem, ⟨4, _⟩ => ⟨S1024x256, .bf16⟩
  | .local _ .vmem, ⟨5, _⟩ => ⟨S1x256, .f32⟩
  | .local _ .vmem, ⟨6, _⟩ => ⟨S2048x32, .f32⟩
  | .local _ .vmem, ⟨7, _⟩ => ⟨S2048x32, .f32⟩
  | _, _ => ⟨S262144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S262144 : S_.BroadcastsInDim S262144 (![] : Fin 0 → Fin S262144.rank)
  shapeCasts_S262144_S262144x1 : S262144.ShapeCasts S262144x1
  shapeCasts_S8x32x1024_S256x1024 : S8x32x1024.ShapeCasts S256x1024
  transposes_S256x1024_S1024x256_1_0 : S256x1024.Transposes [1, 0] S1024x256
  bitsLt_bf16_f32 : FTy.bits .bf16 < FTy.bits .f32
  shapeCasts_S8x32_S1x256 : S8x32.ShapeCasts S1x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x256_o0_0_S2048x32 : S2048x256.Slices ![0, 0] S2048x32
  inb_S1x256_S1x32_0_0 : ∀ a, (![0, 0] : Fin 2 → Nat) a + S1x32.size a ≤ S1x256.size a
  h_S1x32 : 0 < S1x32.numel
  shapeCasts_S1x32_S1x32 : S1x32.ShapeCasts S1x32
  natLt_1_32 : 1 < 32
  broadcasts_S1x32_S2048x32 : S1x32.Broadcasts S2048x32
  broadcasts_S2048x1_S2048x32 : S2048x1.Broadcasts S2048x32
  slices_S2048x256_o0_32_S2048x32 : S2048x256.Slices ![0, 32] S2048x32
  inb_S1x256_S1x32_0_32 : ∀ a, (![0, 32] : Fin 2 → Nat) a + S1x32.size a ≤ S1x256.size a
  slices_S2048x256_o0_64_S2048x32 : S2048x256.Slices ![0, 64] S2048x32
  inb_S1x256_S1x32_0_64 : ∀ a, (![0, 64] : Fin 2 → Nat) a + S1x32.size a ≤ S1x256.size a
  slices_S2048x256_o0_96_S2048x32 : S2048x256.Slices ![0, 96] S2048x32
  inb_S1x256_S1x32_0_96 : ∀ a, (![0, 96] : Fin 2 → Nat) a + S1x32.size a ≤ S1x256.size a
  slices_S2048x256_o0_128_S2048x32 : S2048x256.Slices ![0, 128] S2048x32
  inb_S1x256_S1x32_0_128 : ∀ a, (![0, 128] : Fin 2 → Nat) a + S1x32.size a ≤ S1x256.size a
  slices_S2048x256_o0_160_S2048x32 : S2048x256.Slices ![0, 160] S2048x32
  inb_S1x256_S1x32_0_160 : ∀ a, (![0, 160] : Fin 2 → Nat) a + S1x32.size a ≤ S1x256.size a
  slices_S2048x256_o0_192_S2048x32 : S2048x256.Slices ![0, 192] S2048x32
  inb_S1x256_S1x32_0_192 : ∀ a, (![0, 192] : Fin 2 → Nat) a + S1x32.size a ≤ S1x256.size a
  slices_S2048x256_o0_224_S2048x32 : S2048x256.Slices ![0, 224] S2048x32
  inb_S1x256_S1x32_0_224 : ∀ a, (![0, 224] : Fin 2 → Nat) a + S1x32.size a ≤ S1x256.size a
  inb_S2048x32_S2048x32_0_0 : ∀ a, (![0, 0] : Fin 2 → Nat) a + S2048x32.size a ≤ S2048x32.size a
  h_S2048x32 : 0 < S2048x32.numel
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S262144x1024.size a
  hwx0_0 : ∀ i : grid0.Coords, EltTy.bits .f32 = 32 ∨ (Rect.block (s := S262144x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S262144x1.size a
  hwx0_1 : ∀ i : grid0.Coords, EltTy.bits .i32 = 32 ∨ (Rect.block (s := S262144x1) S2048x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .bf16 = 32 ∨ (Rect.block (s := S1024x256) S1024x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S262144x32.size a
  hwx0_4 : ∀ i : grid0.Coords, EltTy.bits .f32 = 32 ∨ (Rect.block (s := S262144x32) S2048x32.size (cc0_transform_4 i) (hinb0_4 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x1024 : Shape := ⟨2, ![262144, 1024]⟩
abbrev S262144 : Shape := ⟨1, ![262144]⟩
abbrev S8x32x1024 : Shape := ⟨3, ![8, 32, 1024]⟩
abbrev S8x32 : Shape := ⟨2, ![8, 32]⟩
abbrev S262144x8x32 : Shape := ⟨3, ![262144, 8, 32]⟩
abbrev S1x8x32 : Shape := ⟨3, ![1, 8, 32]⟩
abbrev S262144x1x1 : Shape := ⟨3, ![262144, 1, 1]⟩
abbrev S_ : Shape := ⟨0, ![]⟩
abbrev S1 : Shape := ⟨1, ![1]⟩
abbrev S1x1x1 : Shape := ⟨3, ![1, 1, 1]⟩
abbrev S262144x1 : Shape := ⟨2, ![262144, 1]⟩
abbrev S262144x1x32 : Shape := ⟨3, ![262144, 1, 32]⟩
abbrev S262144x32 : Shape := ⟨2, ![262144, 32]⟩

abbrev nBuf : Space → Nat
  | .hbm => 32
  | .vmem => 0
  | .smem => 0
  | _ => 0

abbrev bufTy : (tb : Table) → Fin (tcTables nBuf tb) → BufTy
  | .hbm, ⟨0, _⟩ => ⟨S262144x1024, .f32⟩
  | .hbm, ⟨1, _⟩ => ⟨S262144, .i32⟩
  | .hbm, ⟨2, _⟩ => ⟨S8x32x1024, .f32⟩
  | .hbm, ⟨3, _⟩ => ⟨S8x32, .f32⟩
  | .hbm, ⟨4, _⟩ => ⟨S262144x8x32, .f32⟩
  | .hbm, ⟨5, _⟩ => ⟨S1x8x32, .f32⟩
  | .hbm, ⟨6, _⟩ => ⟨S262144x8x32, .f32⟩
  | .hbm, ⟨7, _⟩ => ⟨S262144x8x32, .f32⟩
  | .hbm, ⟨8, _⟩ => ⟨S262144x1x1, .i32⟩
  | .hbm, ⟨9, _⟩ => ⟨S_, .i32⟩
  | .hbm, ⟨10, _⟩ => ⟨S262144x1x1, .i32⟩
  | .hbm, ⟨11, _⟩ => ⟨S262144x1x1, .i1⟩
  | .hbm, ⟨12, _⟩ => ⟨S_, .i32⟩
  | .hbm, ⟨13, _⟩ => ⟨S262144x1x1, .i32⟩
  | .hbm, ⟨14, _⟩ => ⟨S262144x1x1, .i32⟩
  | .hbm, ⟨15, _⟩ => ⟨S262144x1x1, .i32⟩
  | .hbm, ⟨16, _⟩ => ⟨S1, .i32⟩
  | .hbm, ⟨17, _⟩ => ⟨S_, .i32⟩
  | .hbm, ⟨18, _⟩ => ⟨S262144x1x1, .i32⟩
  | .hbm, ⟨19, _⟩ => ⟨S262144x1x1, .i1⟩
  | .hbm, ⟨20, _⟩ => ⟨S1x1x1, .i32⟩
  | .hbm, ⟨21, _⟩ => ⟨S262144x1x1, .i32⟩
  | .hbm, ⟨22, _⟩ => ⟨S262144x1x1, .i1⟩
  | .hbm, ⟨23, _⟩ => ⟨S262144x1x1, .i1⟩
  | .hbm, ⟨24, _⟩ => ⟨S_, .i1⟩
  | .hbm, ⟨25, _⟩ => ⟨S262144x1, .i1⟩
  | .hbm, ⟨26, _⟩ => ⟨S262144x1x32, .f32⟩
  | .hbm, ⟨27, _⟩ => ⟨S262144x1x32, .i1⟩
  | .hbm, ⟨28, _⟩ => ⟨S_, .f32⟩
  | .hbm, ⟨29, _⟩ => ⟨S262144x1x32, .f32⟩
  | .hbm, ⟨30, _⟩ => ⟨S262144x1x32, .f32⟩
  | .hbm, ⟨31, _⟩ => ⟨S262144x32, .f32⟩
  | _, _ => ⟨S262144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩

abbrev nD : Nat := 1
abbrev τ : Topo := Topo.v7x

variable {F : FTy → Type} [FloatOps F]

class Facts₀ : Prop where
  bcast_S8x32_S1x8x32_1_2 : S8x32.BroadcastsInDim S1x8x32 (![1, 2] : Fin 2 → Fin S1x8x32.rank)
  bcast_S1x8x32_S262144x8x32_0_1_2 : S1x8x32.BroadcastsInDim S262144x8x32 (![0, 1, 2] : Fin 3 → Fin S262144x8x32.rank)
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  h_S_ : 0 < S_.numel
  bcast_S262144x1_S262144x1x32_0_1 : S262144x1.BroadcastsInDim S262144x1x32 (![0, 1] : Fin 2 → Fin S262144x1x32.rank)
  bcast_S_S262144x1x32 : S_.BroadcastsInDim S262144x1x32 (![] : Fin 0 → Fin S262144x1x32.rank)
  shapeCasts_S262144x1x32_S262144x32 : S262144x1x32.ShapeCasts S262144x32
  dot_S262144x1024_S8x32x1024_S262144x8x32_1_2_0_01_n_n_wf : DotDims.WF S262144x1024 S8x32x1024 S262144x8x32 [1] [2] [0] [0, 1] [] []
  gather_S262144x8x32_S262144x1x1_S262144x1x32_2_1_0_0_1_2_1132_wf : GatherDims.WF S262144x8x32 S262144x1x1 S262144x1x32 [2] [1] [0] [1] [0] 2 ![1, 1, 32]

variable [Facts₀]

def dot_S262144x1024_S8x32x1024_S262144x8x32_1_2_0_01_n_n : DotDims S262144x1024 S8x32x1024 S262144x8x32 where
  lhsContracting := [1]
  rhsContracting := [2]
  lhsNonContracting := [0]
  rhsNonContracting := [0, 1]
  lhsBatch := []
  rhsBatch := []
  wf := dot_S262144x1024_S8x32x1024_S262144x8x32_1_2_0_01_n_n_wf
def gather_S262144x8x32_S262144x1x1_S262144x1x32_2_1_0_0_1_2_1132 : GatherDims S262144x8x32 S262144x1x1 S262144x1x32 where
  offsetDims := [2]
  collapsedSliceDims := [1]
  operandBatchingDims := [0]
  startIndicesBatchingDims := [0]
  startIndexMap := [1]
  indexVectorDim := 2
  sliceSizes := ![1, 1, 32]
  wf := gather_S262144x8x32_S262144x1x1_S262144x1x32_2_1_0_0_1_2_1132_wf

class Facts : Prop extends Facts₀ where

variable [Facts]
-- ==== Proof.SelectedHead.lean ====
/-
  The function both programs compute, and the two facts about words that make them compute it.

  Inputs: `x : [262144, 1024]`, a label per row `lab : [262144]` (a 32-bit word), eight affine heads
  `W : [8, 32, 1024]`, `b : [8, 32]`. For a row `r` whose label names task `τ`, the result row is
  `out[r, c] = (∑ k, x[r, k] · W[τ, c, k]) + b[τ, c]` on the extended reals.

  The task a label word names is the word read signed and clamped into `[0, 7]` (`taskOfWord`); for the
  words `0, …, 7` that is the word's own value (`taskOfWord_ofNat`). One program finds the row's head by
  indexing with the label; the other adds, over the eight tasks `t`, the head `t` times the mask
  `[label = t]`, a `0` or a `1` (`maskOf_eq`). On the extended reals `0 · y = 0` and `1 · y = y` for EVERY
  `y`, infinite or not, and `0 + y = y`, so for a label among `0, …, 7` the masked sum is its one selected
  term (`masked_sum`): no finiteness of the heads is needed.
-/
import Idealize.ShloMosaic.PureOps.Ideal
import Idealize.ShloMosaic.PureOps.Ideal.Laws
import Idealize.ShloMosaic.Lib.ValueIdx
import Idealize.ShloMosaic.Lib.Affine

noncomputable section

open scoped BigOperators

namespace Cert.SelectedHead

open Idealize.ShloMosaic Idealize.ShloMosaic.ValueIdx

abbrev SRows : Shape := ⟨1, ![262144]⟩
abbrev SX : Shape := ⟨2, ![262144, 1024]⟩
abbrev SW : Shape := ⟨3, ![8, 32, 1024]⟩
abbrev SB : Shape := ⟨2, ![8, 32]⟩
abbrev SOut : Shape := ⟨2, ![262144, 32]⟩

/-- The task a label word names: the word read as a signed integer and clamped into `[0, 7]`. -/
def taskOfWord (w : BitVec 32) : Fin 8 := ⟨min w.toInt.toNat 7, by omega⟩

/-- The words `0, …, 7` name the tasks `0, …, 7`. -/
theorem taskOfWord_ofNat (n : Fin 8) : taskOfWord (BitVec.ofNat 32 n.val) = n := by
  fin_cases n <;> decide

/-- Every label is one of the words `0, …, 7`. -/
def LabelsInRange (lab : IVec SRows 32) : Prop := ∀ r : Fin 262144, ∃ n : Fin 8, lab (ix1 r) = BitVec.ofNat 32 n.val

/-- A word that reads, signed, inside `[0, 8)` is one of the words `0, …, 7`. -/
theorem word_of_range (w : BitVec 32) (h0 : 0 ≤ w.toInt) (h8 : w.toInt < 8) : ∃ n : Fin 8, w = BitVec.ofNat 32 n.val := by
  have hn : w.toNat < 8 := by
    rw [BitVec.toInt_eq_toNat_cond] at h0 h8
    have := w.isLt
    split at h0 <;> omega
  exact ⟨⟨w.toNat, hn⟩, by simp⟩

/-- THE RESULT: row `r`'s head is the one its label names. -/
def selectedHead (x : FVec Ideal SX .f32) (lab : IVec SRows 32) (W : FVec Ideal SW .f32) (b : FVec Ideal SB .f32) :
    FVec Ideal SOut .f32 :=
  fun j => (∑ k : Fin 1024, x (ix2 (j 0) k) * W (ix3 (taskOfWord (lab (ix1 (j 0)))) (j 1) k))
    + b (ix2 (taskOfWord (lab (ix1 (j 0)))) (j 1))

/-- The mask of task word `t` at a label word `w`: the one-bit compare `w = t`, widened to 32 bits, read as a
    signed integer, as an extended real. -/
def maskOf (w t : BitVec 32) : EReal := ((((IntOp.cmpi .eq w t).setWidth 32).toInt : ℝ) : EReal)

/-- It is `1` where the label is the task and `0` elsewhere. -/
theorem maskOf_eq (w t : BitVec 32) : maskOf w t = if w = t then 1 else 0 := by
  have e1 : ((1#1 : BitVec 1).setWidth 32).toInt = 1 := by decide
  have e0 : ((0#1 : BitVec 1).setWidth 32).toInt = 0 := by decide
  unfold maskOf
  by_cases h : w = t
  · rw [if_pos h, show IntOp.cmpi .eq w t = 1#1 from IntOp.cmpi_eq.2 h, e1]; simp
  · rw [if_neg h, show IntOp.cmpi .eq w t = 0#1 from eq_zero_of_ne_one (fun e => h (IntOp.cmpi_eq.1 e)), e0]; simp

/-- THE MASKED SUM IS ITS SELECTED TERM: for a label among `0, …, 7`, adding up from `0` the eight heads, each times its
    mask, leaves the head the label names. Only `0 · y = 0`, `1 · y = y` and `0 + y = y` are used, which hold for
    every extended real. -/
theorem masked_sum (w : BitVec 32) (n : Fin 8) (hw : w = BitVec.ofNat 32 n.val) (y : Fin 8 → EReal) :
    ((((((((0 + maskOf w 0#32 * y 0) + maskOf w 1#32 * y 1) + maskOf w 2#32 * y 2) + maskOf w 3#32 * y 3)
      + maskOf w 4#32 * y 4) + maskOf w 5#32 * y 5) + maskOf w 6#32 * y 6) + maskOf w 7#32 * y 7) = y n := by
  subst hw
  fin_cases n <;> simp [maskOf_eq]

end Cert.SelectedHead

end
-- ==== Proof.LabelRange.lean ====
/-
  The precondition, decoded: every label is one of the words `0, …, 7`.

  The printed precondition is a conjunction (an `and` of one-bit scalars) whose last two conjuncts are
  `all (label ≥ 0)` and `all (label < 8)`, each an `and`-reduction over all rows of a signed word compare against a
  broadcast constant. The conjunction being `1` makes each conjunct `1`; an `and`-reduction that is `1` had a `1` at
  every row; a signed compare that is `1` is the inequality between the signed readings; and a word whose signed
  reading lies in `[0, 8)` is one of `0, …, 7` (`word_of_range`). Stated for every float instance: the label
  conjuncts do not mention the floats.
-/
import proofs.«401491_j22832046146100_2_alg».proof.Pre_finite_inputs
import proofs.«401491_j22832046146100_2_alg».proof.Proof.SelectedHead
import Idealize.ShloMosaic.Lib.ReduceAll

noncomputable section

namespace Cert.LabelRange

open Idealize.ShloMosaic Idealize.ShloMosaic.ValueIdx Cert.SelectedHead Cert.Pre_finite_inputs

variable {F : FTy → Type} [FloatOps F] [hP : Cert.Pre_finite_inputs.Facts]

/-- The scalar shape has one index. -/
instance : Subsingleton S_.Idx := ⟨fun a b => funext fun d => d.elim0⟩

/-- Where the printed precondition holds, every label is one of the words `0, …, 7`. -/
theorem labels_in_range (a0 : FVec F S262144x1024 .f32) (lab : IVec S262144 32) (a2 : FVec F S8x32x1024 .f32)
    (a3 : FVec F S8x32 .f32) (h : fn (F := F) a0 lab a2 a3 = fun _ => 1#1) : LabelsInRange lab := by
  have h0 := congrFun h ix0
  dsimp only [fn, fn_part1] at h0
  obtain ⟨h17, h20⟩ := IntOp.andi_eq_one.1 h0
  obtain ⟨-, h16⟩ := IntOp.andi_eq_one.1 h17
  intro r
  have hge : IntOp.cmpi .sge (lab (ix1 r)) 0#32 = 1#1 := Host.reduce_andi_all _ _ _ _ _ h16 (ix1 r)
  have hlt : IntOp.cmpi .slt (lab (ix1 r)) 8#32 = 1#1 := Host.reduce_andi_all _ _ _ _ _ h20 (ix1 r)
  have z0 : (0#32 : BitVec 32).toInt = 0 := by decide
  have z8 : (8#32 : BitVec 32).toInt = 8 := by decide
  have g := IntOp.cmpi_sge.1 hge
  have l := IntOp.cmpi_slt.1 hlt
  rw [z0] at g
  rw [z8] at l
  exact word_of_range _ g l

end Cert.LabelRange

end
-- ==== Proof.ReferenceGather.lean ====
/-
  The reference, read at an index, is the selected head.

  The reference forms all eight heads for every row, `all[r, t, c] = (∑ k, x[r, k] · W[t, c, k]) + b[t, c]`, and then
  takes, along the task axis, the entry its label names: the label is first wrapped (a negative label has 8
  added), a validity bit `0 ≤ label' ≤ 7` is formed (an `and`-reduction over an axis of extent one), a batched
  gather reads `all[r, label', c]` with the start index read signed and clamped into `[0, 7]`, and where the bit is
  clear the result is replaced by a fill value; a reshape drops the unit axis.

  For a label among the words `0, …, 7` the wrap leaves it as it is and the validity bit is `1` (both decided on
  the eight words), so the result at `(r, c)` is the gathered `all[r, τ, c]` with `τ` the label's task: the operand
  index of the gather is computed from its dimension numbers — row `r` on the batching axis, the clamped start on
  the collapsed axis, column `c` on the offset axis.
-/
import proofs.«401491_j22832046146100_2_alg».proof.Proof.RefRead
import proofs.«401491_j22832046146100_2_alg».proof.Proof.SelectedHead

noncomputable section

open scoped BigOperators

namespace Cert.ReferenceGather

open Cert.ReferenceIdeal Cert.ReferenceIdeal.Gen Cert.ReferenceIdeal.ReadP Idealize.ShloMosaic Idealize.ShloMosaic.ValueIdx
open Cert.SelectedHead

/-! ## The gather's operand index -/

/-- The reference's gather: operand `[262144, 8, 32]`, start indices `[262144, 1, 1]`, result `[262144, 1, 32]`;
    axis 0 batching, axis 1 collapsed and start-indexed, axis 2 the offset axis. -/
abbrev gd := gather_S262144x8x32_S262144x1x1_S262144x1x32_2_1_0_0_1_2_1132

theorem offCoord_zero_0 (j : S262144x1x32.Idx) : gd.offCoord j 0 = 0 :=
  gd.offCoord_eq_zero j 0 (fun h => ((gd.mem_sKept 0).1 h).2 (List.mem_singleton.mpr rfl))
theorem offCoord_zero_1 (j : S262144x1x32.Idx) : gd.offCoord j 1 = 0 :=
  gd.offCoord_eq_zero j 1 (fun h => ((gd.mem_sKept 1).1 h).1 (List.mem_singleton.mpr rfl))
theorem batchCoord_zero_1 (j : S262144x1x32.Idx) : gd.batchCoord j 1 = 0 := gd.batchCoord_eq_zero j 1 (by decide)
theorem batchCoord_zero_2 (j : S262144x1x32.Idx) : gd.batchCoord j 2 = 0 := gd.batchCoord_eq_zero j 2 (by decide)
theorem start_zero_0 (j : S262144x1x32.Idx) (idx : IVec S262144x1x1 32) : gd.start j idx 0 = 0 :=
  gd.start_batching j idx 0 (List.mem_singleton.mpr rfl)
theorem start_zero_2 (j : S262144x1x32.Idx) (idx : IVec S262144x1x1 32) : gd.start j idx 2 = 0 := by
  unfold GatherDims.start
  rw [dif_neg (by decide)]

/-- On the offset axis the result's column. -/
theorem offCoord_2 (r : Fin 262144) (c : Fin 32) : gd.offCoord (ix3 r (0 : Fin 1) c) 2 = c.val := by
  unfold GatherDims.offCoord
  rw [dif_pos (by decide)]
  exact congrArg (fun a => ((ix3 r (0 : Fin 1) c : S262144x1x32.Idx) a).val)
    (by decide : gd.offsetDims[List.idxOf (2 : Fin 3) gd.sKept]'(by decide) = (2 : Fin 3))

/-- The start indices' first two axes read the result's first two coordinates: the row … -/
theorem siCoord_0 (r : Fin 262144) (c : Fin 32) (hb : (0 : Fin 3) ∈ gd.siKept) :
    (gd.siCoord (ix3 r (0 : Fin 1) c) 0 hb).val = r.val := by
  unfold GatherDims.siCoord
  exact congrArg (fun a => ((ix3 r (0 : Fin 1) c : S262144x1x32.Idx) a).val)
    (by decide : gd.batchDims[List.idxOf (0 : Fin 3) gd.siKept]'(by decide) = (0 : Fin 3))
/-- … and the unit coordinate. -/
theorem siCoord_1 (r : Fin 262144) (c : Fin 32) (hb : (1 : Fin 3) ∈ gd.siKept) :
    (gd.siCoord (ix3 r (0 : Fin 1) c) 1 hb).val = 0 := by
  unfold GatherDims.siCoord
  exact congrArg (fun a => ((ix3 r (0 : Fin 1) c : S262144x1x32.Idx) a).val)
    (by decide : gd.batchDims[List.idxOf (1 : Fin 3) gd.siKept]'(by decide) = (1 : Fin 3))

/-- On the batching axis the result's row. -/
theorem batchCoord_0 (r : Fin 262144) (c : Fin 32) : gd.batchCoord (ix3 r (0 : Fin 1) c) 0 = r.val := by
  unfold GatherDims.batchCoord
  rw [dif_pos (by decide)]
  exact siCoord_0 r c _

/-- The start index of result `(r, 0, c)` is read at `(r, 0, 0)`. -/
theorem siIdx_eq (r : Fin 262144) (c : Fin 32) (k : Fin gd.startIndexMap.length) :
    gd.siIdx (ix3 r (0 : Fin 1) c) k = (ix3 r (0 : Fin 1) (0 : Fin 1) : S262144x1x1.Idx) := by
  funext b
  refine Fin.ext ?_
  match b with
  | ⟨0, _⟩ =>
    unfold GatherDims.siIdx
    split
    · rename_i hb; exact absurd hb (show ¬ (0 : Nat) = 2 by decide)
    · exact siCoord_0 r c _
  | ⟨1, _⟩ =>
    unfold GatherDims.siIdx
    split
    · rename_i hb; exact absurd hb (show ¬ (1 : Nat) = 2 by decide)
    · exact siCoord_1 r c _
  | ⟨2, _⟩ =>
    have hk : k.val = 0 := by have := k.isLt; have e : gd.startIndexMap.length = 1 := rfl; omega
    unfold GatherDims.siIdx
    split
    · exact hk
    · rename_i hb; exact absurd (show (2 : Nat) = 2 from rfl) hb

/-- On the collapsed axis the start index, read signed and clamped into `[0, 7]`. -/
theorem start_1 (r : Fin 262144) (c : Fin 32) (idx : IVec S262144x1x1 32) :
    gd.start (ix3 r (0 : Fin 1) c) idx 1 = min (idx (ix3 r (0 : Fin 1) (0 : Fin 1))).toInt.toNat 7 := by
  unfold GatherDims.start
  rw [dif_pos (by decide), siIdx_eq]
  rfl

/-- THE GATHER READ AT `(r, 0, c)`: the operand at row `r`, the task the start word names, column `c`. -/
theorem gather_apply {α : Type} (A : S262144x8x32.Idx → α) (idx : IVec S262144x1x1 32) (r : Fin 262144) (c : Fin 32) :
    Host.gather gd A idx (ix3 r (0 : Fin 1) c) = A (ix3 r (taskOfWord (idx (ix3 r (0 : Fin 1) (0 : Fin 1)))) c) := by
  unfold Host.gather
  refine congrArg A (funext fun a => Fin.ext ?_)
  match a with
  | ⟨0, _⟩ =>
    show gd.start (ix3 r (0 : Fin 1) c) idx 0 + gd.batchCoord (ix3 r (0 : Fin 1) c) 0 + gd.offCoord (ix3 r (0 : Fin 1) c) 0 = r.val
    rw [start_zero_0, batchCoord_0, offCoord_zero_0]
    omega
  | ⟨1, _⟩ =>
    show gd.start (ix3 r (0 : Fin 1) c) idx 1 + gd.batchCoord (ix3 r (0 : Fin 1) c) 1 + gd.offCoord (ix3 r (0 : Fin 1) c) 1
      = (taskOfWord (idx (ix3 r (0 : Fin 1) (0 : Fin 1)))).val
    rw [start_1, batchCoord_zero_1, offCoord_zero_1]
    rfl
  | ⟨2, _⟩ =>
    show gd.start (ix3 r (0 : Fin 1) c) idx 2 + gd.batchCoord (ix3 r (0 : Fin 1) c) 2 + gd.offCoord (ix3 r (0 : Fin 1) c) 2 = c.val
    rw [start_zero_2, batchCoord_zero_2, offCoord_2]
    omega

/-! ## The labels: wrapped, and tested for range -/

/-- On the words `0, …, 7` the wrap of negative labels changes nothing … -/
theorem wrap_word (n : Fin 8) :
    Scalar.select (IntOp.cmpi .slt (BitVec.ofNat 32 n.val) 0#32) (IntOp.addi (BitVec.ofNat 32 n.val) 8#32) (BitVec.ofNat 32 n.val)
      = BitVec.ofNat 32 n.val := by
  fin_cases n <;> decide
/-- … and the range test `0 ≤ · ≤ 7` passes. -/
theorem valid_word (n : Fin 8) :
    IntOp.andi (IntOp.cmpi .sge (BitVec.ofNat 32 n.val) 0#32) (IntOp.cmpi .sle (BitVec.ofNat 32 n.val) 7#32) = 1#1 := by
  fin_cases n <;> decide

variable (lab : IVec S262144 32) (hL : LabelsInRange lab)
include hL

/-- The wrapped label of a row is the label. -/
theorem wrapped_label (i : S262144x1x1.Idx) : val_main_call0_v4 (F := Ideal) lab i = lab (ix1 (i 0)) := by
  obtain ⟨n, hn⟩ := hL (i 0)
  have e4 : val_main_v4 (F := Ideal) lab i = lab (ix1 (i 0)) := by
    rw [val_main_v4_apply]
    exact congrArg lab (funext fun a => match a with | ⟨0, _⟩ => rfl)
  rw [val_main_call0_v4_apply, val_main_call0_v1_apply, val_main_call0_v3_apply, e4, val_main_call0_v0_apply,
    val_main_call0_c_apply, val_main_call0_v2_apply, val_main_call0_c_0_apply, hn]
  exact wrap_word n

/-- The range test of a row's wrapped label passes. -/
theorem range_bit (i : S262144x1x1.Idx) : val_main_call0_v10 (F := Ideal) lab i = 1#1 := by
  obtain ⟨n, hn⟩ := hL (i 0)
  rw [val_main_call0_v10_apply, val_main_call0_v6_apply, val_main_call0_v9_apply, wrapped_label lab hL i,
    val_main_call0_v5_apply, val_main_call0_c_2_apply, val_main_call0_v8_apply, val_main_call0_v7_apply,
    val_main_call0_c_1_apply, hn]
  exact valid_word n

omit hL in
/-- A left fold by `and` from `1` over bits that are all `1` is `1`. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- So the validity bit of every row is set. -/
theorem valid_bit (j : S262144x1.Idx) : val_main_call0_v11 (F := Ideal) lab j = 1#1 := by
  unfold val_main_call0_v11
  rw [Host.reduce_eq_foldl]
  exact foldl_andi_ones _ (range_bit lab hL) _

/-! ## The result at an index -/

/-- THE REFERENCE IS THE SELECTED HEAD, for labels among the words `0, …, 7`. -/
theorem reference_eq (x : FVec Ideal S262144x1024 .f32) (W : FVec Ideal S8x32x1024 .f32) (b : FVec Ideal S8x32 .f32) :
    val_main_v6 (F := Ideal) x lab W b = selectedHead x lab W b := by
  funext j
  obtain ⟨r, c, rfl⟩ : ∃ (r : Fin 262144) (c : Fin 32), j = ix2 r c := ⟨j 0, j 1, eq_ix2 j⟩
  have e6 : idx_main_v6 (ix2 r c) = (ix3 r (0 : Fin 1) c : S262144x1x32.Idx) := by
    funext a; refine Fin.ext ?_
    have hc := c.isLt
    match a with
    | ⟨0, _⟩ => show (r.val * 32 + c.val) / 32 = r.val; omega
    | ⟨1, _⟩ => rfl
    | ⟨2, _⟩ => show (r.val * 32 + c.val) % 32 = c.val; omega
  rw [val_main_v6_apply, e6, val_main_v5_apply, val_main_call0_v13_apply, valid_bit lab hL, select_one]
  unfold val_main_call0_v12
  rw [gather_apply, wrapped_label lab hL, val_main_v3_apply, val_main_v0_apply, val_main_v2_apply, val_main_v1_apply]
  have el : ∀ (t : Fin 8) (k : Fin 1024), lidx_main_v0 (ix3 r t c) k = (ix2 r k : S262144x1024.Idx) :=
    fun t k => funext fun a => match a with | ⟨0, _⟩ => rfl | ⟨1, _⟩ => rfl
  have er : ∀ (t : Fin 8) (k : Fin 1024), ridx_main_v0 (ix3 r t c) k = (ix3 t c k : S8x32x1024.Idx) :=
    fun t k => funext fun a => match a with | ⟨0, _⟩ => rfl | ⟨1, _⟩ => rfl | ⟨2, _⟩ => rfl
  have eb : ∀ t : Fin 8, idx_main_v1 (idx_main_v2 (ix3 r t c)) = (ix2 t c : S8x32.Idx) :=
    fun t => funext fun a => match a with | ⟨0, _⟩ => rfl | ⟨1, _⟩ => rfl
  simp only [el, er, eb]
  rfl

end Cert.ReferenceGather

end
-- ==== Proof.KernelBlock.lean ====
/-
  One block of the kernel, read at an index.

  At a grid point the body holds a block of 2048 rows of `x`, their 2048 labels as a column, the whole
  `WT : [1024, 256]` (column `32·t + c` of it is head `t`'s row `c`) and the whole bias row `[1, 256]`. It forms
  `flat = x_block · WT` (a product into a zero accumulator: at the ideal instance the plain sum over the 1024
  contracted coordinates, a change of float format being the identity), and then adds up, from `0`, for
  `t = 0, …, 7`: the mask `[label = t]` (a column, broadcast along the 32 lanes) times
  `flat[:, 32·t : 32·t + 32] + bias[:, 32·t : 32·t + 32]` (the bias row broadcast down the 2048 rows).

  At row `p`, lane `q`, every operation but four is pointwise. The four: the column broadcast reads its row's
  entry, the row broadcast its lane's, the slice shifts the lane by its offset, a load through a rectangle shifts
  by the rectangle's offset. So term `t` is `mask_t(label_p) · (flat[p, 32·t + q] + bias[0, 32·t + q])`, and for a
  label among the words `0, …, 7` the sum of the eight is the term of the label's task (`masked_sum`).
-/
import proofs.«401491_j22832046146100_2_alg».proof.Proof.Gen.KernelIdeal.Frame
import proofs.«401491_j22832046146100_2_alg».proof.Proof.SelectedHead
import Idealize.ShloMosaic.Lib.Pipeline.Value
import Idealize.ShloMosaic.Lib.ValueLayout
import Idealize.ShloMosaic.PureOps.Ideal.Laws

noncomputable section

open scoped BigOperators

namespace Cert.KernelBlock

open Cert.KernelIdeal Cert.KernelIdeal.Gen Idealize.ShloMosaic Idealize.ShloMosaic.ValueIdx Cert.SelectedHead

/-! ## The product, at an index -/

theorem lhs_0 (i : S2048x256.Idx) (q : dot_S2048x1024_S1024x256_S2048x256_1_0_0_1_n_n.contr.Idx) :
    (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs_1 (i : S2048x256.Idx) (q : dot_S2048x1024_S1024x256_S2048x256_1_0_0_1_n_n.contr.Idx) :
    (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs_0 (i : S2048x256.Idx) (q : dot_S2048x1024_S1024x256_S2048x256_1_0_0_1_n_n.contr.Idx) :
    (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs_1 (i : S2048x256.Idx) (q : dot_S2048x1024_S1024x256_S2048x256_1_0_0_1_n_n.contr.Idx) :
    (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-- `flat[p, j] = ∑ k, x[p, k] · WT[k, j]`. -/
theorem flat_apply (x0 : Vec Ideal S2048x1024 .f32) (x2 : Vec Ideal S1024x256 .bf16) (p : Fin 2048) (j : Fin 256) :
    k0_pay2 (F := Ideal) x0 x2 (ix2 p j) = ∑ k : Fin 1024, x0 (ix2 p k) * x2 (ix2 k j) := by
  unfold k0_pay2
  rw [shapeCast_self]
  simp only [matmul]
  rw [Ideal.matmul_constant_zero_apply, ← Equiv.sum_comp (contrEquiv1 dot_S2048x1024_S1024x256_S2048x256_1_0_0_1_n_n 1024 rfl rfl).symm]
  refine Finset.sum_congr rfl fun k _ => ?_
  have hk := contrEquiv1_symm_val dot_S2048x1024_S1024x256_S2048x256_1_0_0_1_n_n 1024 rfl rfl k
  have el : dot_S2048x1024_S1024x256_S2048x256_1_0_0_1_n_n.lhsIdx (ix2 p j) ((contrEquiv1 dot_S2048x1024_S1024x256_S2048x256_1_0_0_1_n_n 1024 rfl rfl).symm k) = (ix2 p k : S2048x1024.Idx) := funext fun a => Fin.ext (by
    match a with
    | ⟨0, _⟩ => exact lhs_0 _ _
    | ⟨1, _⟩ => exact (lhs_1 _ _).trans hk)
  have er : dot_S2048x1024_S1024x256_S2048x256_1_0_0_1_n_n.rhsIdx (ix2 p j) ((contrEquiv1 dot_S2048x1024_S1024x256_S2048x256_1_0_0_1_n_n 1024 rfl rfl).symm k) = (ix2 k j : S1024x256.Idx) := funext fun a => Fin.ext (by
    match a with
    | ⟨0, _⟩ => exact (rhs_0 _ _).trans hk
    | ⟨1, _⟩ => exact rhs_1 _ _)
  rw [el, er]
  rfl

/-! ## The layout operations, at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A slice of 32 lanes from lane `o` reads, at `(p, q)`, lane `o + q`. -/
theorem slice_apply {α : Type} (flat : S2048x256.Idx → α) (o : ℕ) (ho : o + 32 ≤ 256) (hs : S2048x256.Slices ![0, o] S2048x32)
    (p : Fin 2048) (q : Fin 32) :
    extractStridedSlice S2048x32 ![0, o] flat hs (ix2 p q) = flat (ix2 p ⟨o + q.val, by have := q.isLt; omega⟩) :=
  extractStridedSlice_apply ![0, o] flat hs (ix2 p q) (ix2 p ⟨o + q.val, by have := q.isLt; omega⟩) fun a =>
    match a with
    | ⟨0, _⟩ => by show p.val = 0 + p.val; omega
    | ⟨1, _⟩ => rfl

/-- A load of 32 lanes of the bias row from lane `o` reads, at `(0, q)`, lane `o + q`. -/
theorem ld_bias_apply (x3 : Vec Ideal S1x256 .f32) (o : ℕ) (ho : o + 32 ≤ 256) (inb : ∀ a, (![0, o] : Fin 2 → ℕ) a + S1x32.size a ≤ S1x256.size a)
    (q : Fin 32) :
    View.ld x3 (Rect.unit (s := S1x256) ![0, o] S1x32.size inb) (ix2 (0 : Fin 1) q)
      = x3 (ix2 (0 : Fin 1) ⟨o + q.val, by have := q.isLt; omega⟩) := by
  show x3 _ = x3 _
  refine congrArg x3 (funext fun a => Fin.ext ?_)
  match a with
  | ⟨0, _⟩ => rfl
  | ⟨1, _⟩ => show o + 1 * q.val = o + q.val; omega

/-! ## One task's term, and the sum of the eight -/

/-- TERM `t` AT `(p, q)`: the mask of the row's label times the head's entry plus its bias. -/
theorem term_apply (flat : FVec Ideal S2048x256 .f32) (x1 : Vec Ideal S2048x1 .i32) (bias : Vec Ideal S1x32 .f32)
    (o : ℕ) (ho : o + 32 ≤ 256) (hs : S2048x256.Slices ![0, o] S2048x32) (t : BitVec 32) (p : Fin 2048) (q : Fin 32) :
    mulf (broadcastTo S2048x32 (sitofp (F := Ideal) .f32 (extui 32 (cmpi .eq (shapeCast S2048x1 x1 shapeCasts_S2048x1_S2048x1) (broadcast S2048x1 t)) natLt_1_32)) broadcasts_S2048x1_S2048x32)
        (addf (extractStridedSlice S2048x32 ![0, o] flat hs)
          (broadcastTo S2048x32 (shapeCast S1x32 bias shapeCasts_S1x32_S1x32) broadcasts_S1x32_S2048x32))
        (ix2 p q)
      = maskOf (x1 (ix2 p (0 : Fin 1))) t
        * (flat (ix2 p ⟨o + q.val, by have := q.isLt; omega⟩) + bias (ix2 (0 : Fin 1) q)) := by
  rw [shapeCast_self, shapeCast_self]
  show broadcastTo S2048x32 (sitofp (F := Ideal) .f32 (extui 32 (cmpi .eq x1 (broadcast S2048x1 t)) natLt_1_32)) broadcasts_S2048x1_S2048x32 (ix2 p q)
      * (extractStridedSlice S2048x32 ![0, o] flat hs (ix2 p q)
        + broadcastTo S2048x32 bias broadcasts_S1x32_S2048x32 (ix2 p q)) = _
  rw [broadcastTo_a1_ab_apply, broadcastTo_1b_ab_apply, slice_apply flat o ho hs p q]
  rfl

/-- `![0, 0]` is the zero offset. -/
theorem hz : (![0, 0] : Fin 2 → Nat) = fun _ => 0 := funext fun a => by fin_cases a <;> rfl

/-- THE BLOCK AT `(p, q)`, for a row whose label is the word of task `n`: head `n`'s entry of the row, plus its bias,
    both read from the 256-wide operands at lane `32·n + q`. -/
theorem out_apply (x0 : Vec Ideal S2048x1024 .f32) (x1 : Vec Ideal S2048x1 .i32) (x2 : Vec Ideal S1024x256 .bf16)
    (x3 : Vec Ideal S1x256 .f32) (p : Fin 2048) (q : Fin 32) (n : Fin 8) (hn : x1 (ix2 p (0 : Fin 1)) = BitVec.ofNat 32 n.val) :
    out0_4 (F := Ideal) x0 x1 x2 x3 (ix2 p q)
      = (∑ k : Fin 1024, x0 (ix2 p k) * x2 (ix2 k ⟨32 * n.val + q.val, by have := q.isLt; have := n.isLt; omega⟩))
        + x3 (ix2 (0 : Fin 1) ⟨32 * n.val + q.val, by have := q.isLt; have := n.isLt; omega⟩) := by
  unfold out0_4
  rw [View.canon_unit_zero hz]
  simp only [View.ld_unit_zero (S := S2048x1024) hz, View.ld_unit_zero (S := S1024x256) hz, View.ld_unit_zero (S := S2048x1) hz]
  unfold k0_pay1 k0_pay7 k0_pay4 k0_pay5 k0_pay6 k0_pay8 k0_pay9 k0_pay3
  dsimp only
  simp only [addf_apply]
  rw [term_apply (k0_pay2 x0 x2) x1 (View.ld x3 r0_3) 0 (by omega) slices_S2048x256_o0_0_S2048x32 0#32 p q,
    term_apply (k0_pay2 x0 x2) x1 (View.ld x3 r0_4) 32 (by omega) slices_S2048x256_o0_32_S2048x32 1#32 p q,
    term_apply (k0_pay2 x0 x2) x1 (View.ld x3 r0_5) 64 (by omega) slices_S2048x256_o0_64_S2048x32 2#32 p q,
    term_apply (k0_pay2 x0 x2) x1 (View.ld x3 r0_6) 96 (by omega) slices_S2048x256_o0_96_S2048x32 3#32 p q,
    term_apply (k0_pay2 x0 x2) x1 (View.ld x3 r0_7) 128 (by omega) slices_S2048x256_o0_128_S2048x32 4#32 p q,
    term_apply (k0_pay2 x0 x2) x1 (View.ld x3 r0_8) 160 (by omega) slices_S2048x256_o0_160_S2048x32 5#32 p q,
    term_apply (k0_pay2 x0 x2) x1 (View.ld x3 r0_9) 192 (by omega) slices_S2048x256_o0_192_S2048x32 6#32 p q,
    term_apply (k0_pay2 x0 x2) x1 (View.ld x3 r0_10) 224 (by omega) slices_S2048x256_o0_224_S2048x32 7#32 p q]
  rw [ld_bias_apply x3 0 (by omega) inb_S1x256_S1x32_0_0 q,
    ld_bias_apply x3 32 (by omega) inb_S1x256_S1x32_0_32 q,
    ld_bias_apply x3 64 (by omega) inb_S1x256_S1x32_0_64 q,
    ld_bias_apply x3 96 (by omega) inb_S1x256_S1x32_0_96 q,
    ld_bias_apply x3 128 (by omega) inb_S1x256_S1x32_0_128 q,
    ld_bias_apply x3 160 (by omega) inb_S1x256_S1x32_0_160 q,
    ld_bias_apply x3 192 (by omega) inb_S1x256_S1x32_0_192 q,
    ld_bias_apply x3 224 (by omega) inb_S1x256_S1x32_0_224 q]
  rw [show broadcast S2048x32 (Scalar.ofBits (F := Ideal) .f32 0x00000000#32) (ix2 p q) = (0 : EReal) from Ideal.ofBits_zero_f32]
  refine (masked_sum (x1 (ix2 p (0 : Fin 1))) n hn (fun t : Fin 8 =>
    k0_pay2 x0 x2 (ix2 p ⟨32 * t.val + q.val, by have := q.isLt; have := t.isLt; omega⟩)
      + x3 (ix2 (0 : Fin 1) ⟨32 * t.val + q.val, by have := q.isLt; have := t.isLt; omega⟩))).trans ?_
  show k0_pay2 x0 x2 (ix2 p ⟨32 * n.val + q.val, _⟩) + _ = _
  rw [flat_apply]

end Cert.KernelBlock

end
-- ==== Proof.KernelArray.lean ====
/-
  From the kernel's blocks to its result array.

  Before the region the host clamps the labels into `[0, 7]` (a maximum with `0`, then a minimum with `7`: the
  identity on the words `0, …, 7`) and reshapes them to a column `[262144, 1]`; reshapes `W : [8, 32, 1024]` to
  `[256, 1024]`, transposes it and changes its float format (the identity on extended reals): entry
  `(k, 32·t + c)` of the result is `W[t, c, k]`; and reshapes `b : [8, 32]` to a row `[1, 256]`: entry
  `(0, 32·t + c)` is `b[t, c]`.

  The grid has 128 points. At point `t` the pipeline stages rows `2048·t, …, 2048·t + 2047` of `x` and of the label
  column, the whole of the two small operands, and writes back rows `2048·t, …` of the result (the printed index
  maps, decided over the grid). So what point `t` writes back is, at `(p, q)`, the block's value at a row whose
  label names a task `n`: `(∑ k, x[R, k] · W[n, q, k]) + b[n, q]` with `R = 2048·t + p` — block `t` of the selected
  head. The 128 blocks tile the 262144 rows (row `R` lies in block `R / 2048`), so the array ends holding the
  selected head.
-/
import proofs.«401491_j22832046146100_2_alg».proof.Proof.Gen.KernelIdeal.Value
import proofs.«401491_j22832046146100_2_alg».proof.Proof.KernelBlock
import Idealize.ShloMosaic.Lib.StableHlo.Run

noncomputable section

open scoped BigOperators

namespace Cert.KernelArray

open Cert.KernelIdeal Cert.KernelIdeal.Gen Idealize.ShloMosaic Idealize.ShloMosaic.TcCoe Idealize.SL.Sem
open Idealize.ShloMosaic.StableHlo Idealize.ShloMosaic.ValueIdx Cert.SelectedHead Cert.KernelBlock
open Idealize.ShloMosaic.Pipeline (Dat)

variable (m : (ℓ : Loc nD τ sig) → Buf (Elt Ideal) ℓ) (ρ : Dev nD → PrngReg)

/-! ## The argument arrays, at their literal types -/

abbrev argX (c : Dev nD) : FVec Ideal S262144x1024 .f32 := m ((c : Thread nD τ).loc main_arg0)
abbrev argLab (c : Dev nD) : IVec S262144 32 := m ((c : Thread nD τ).loc main_arg1)
abbrev argW (c : Dev nD) : FVec Ideal S8x32x1024 .f32 := m ((c : Thread nD τ).loc main_arg2)
abbrev argB (c : Dev nD) : FVec Ideal S8x32 .f32 := m ((c : Thread nD τ).loc main_arg3)

/-! ## What the host leaves in the three arrays it writes -/

/-- The label column: the labels clamped into `[0, 7]`, reshaped. -/
theorem V_labels (c : Dev nD) : (V m c main_v1 : S262144x1.Idx → BitVec 32)
    = shapeCast S262144x1 (minsi (broadcastInDim S262144 ![] bcast_S_S262144 (constantI S_ 32 7#32))
        (maxsi (broadcastInDim S262144 ![] bcast_S_S262144 (constantI S_ 32 0#32)) (argLab m c))) shapeCasts_S262144_S262144x1 := by
  dsimp only [V]
  simp only [hostOps0, hostOps0_1, hostOps0_2, List.flatten_cons, List.flatten_nil, List.append_nil, List.cons_append, List.nil_append]
  after_results
  rfl

/-- The transposed weights. -/
theorem V_wt (c : Dev nD) : (V m c main_v4 : S1024x256.Idx → EReal)
    = truncf .bf16 (transpose S1024x256 [1, 0] (shapeCast S256x1024 (argW m c) shapeCasts_S8x32x1024_S256x1024)
        transposes_S256x1024_S1024x256_1_0) bitsLt_bf16_f32 := by
  dsimp only [V]
  simp only [hostOps0, hostOps0_1, hostOps0_2, List.flatten_cons, List.flatten_nil, List.append_nil, List.cons_append, List.nil_append]
  after_results
  rfl

/-- The bias row. -/
theorem V_bias (c : Dev nD) : (V m c main_v5 : S1x256.Idx → EReal) = shapeCast S1x256 (argB m c) shapeCasts_S8x32_S1x256 := by
  dsimp only [V]
  simp only [hostOps0, hostOps0_1, hostOps0_2, List.flatten_cons, List.flatten_nil, List.append_nil, List.cons_append, List.nil_append]
  after_results
  rfl

/-- The clamp into `[0, 7]` leaves the words `0, …, 7` as they are. -/
theorem clamp_word (n : Fin 8) : IntOp.minsi 7#32 (IntOp.maxsi 0#32 (BitVec.ofNat 32 n.val)) = BitVec.ofNat 32 n.val := by
  fin_cases n <;> decide

/-- Row `R` of the label column is row `R`'s label, when that is a word among `0, …, 7`. -/
theorem V_labels_apply (c : Dev nD) (R : Fin 262144) (n : Fin 8) (hn : argLab m c (ix1 R) = BitVec.ofNat 32 n.val) :
    (V m c main_v1 : S262144x1.Idx → BitVec 32) (ix2 R (0 : Fin 1)) = BitVec.ofNat 32 n.val := by
  rw [V_labels, shapeCast_apply _ shapeCasts_S262144_S262144x1 (ix2 R (0 : Fin 1)) (ix1 R)
    (by rw [Shape.rowMajor_val_one, Shape.rowMajor_val_two]; show R.val = R.val * 1 + 0; omega)]
  show IntOp.minsi 7#32 (IntOp.maxsi 0#32 (argLab m c (ix1 R))) = _
  rw [hn]
  exact clamp_word n

/-- Entry `(k, 32·n + q)` of the transposed weights is `W[n, q, k]`. -/
theorem V_wt_apply (c : Dev nD) (k : Fin 1024) (n : Fin 8) (q : Fin 32) (h : 32 * n.val + q.val < 256) :
    (V m c main_v4 : S1024x256.Idx → EReal) (ix2 k ⟨32 * n.val + q.val, h⟩) = argW m c (ix3 n q k) := by
  rw [V_wt]
  show transpose S1024x256 [1, 0] (shapeCast S256x1024 (argW m c) shapeCasts_S8x32x1024_S256x1024)
    transposes_S256x1024_S1024x256_1_0 (ix2 k ⟨32 * n.val + q.val, h⟩) = _
  rw [transpose_ix2_apply]
  exact shapeCast_apply _ _ _ (ix3 n q k)
    (by rw [Shape.rowMajor_val_three, Shape.rowMajor_val_two]
        show (n.val * 32 + q.val) * 1024 + k.val = (32 * n.val + q.val) * 1024 + k.val; omega)

/-- Entry `(0, 32·n + q)` of the bias row is `b[n, q]`. -/
theorem V_bias_apply (c : Dev nD) (n : Fin 8) (q : Fin 32) (h : 32 * n.val + q.val < 256) :
    (V m c main_v5 : S1x256.Idx → EReal) (ix2 (0 : Fin 1) ⟨32 * n.val + q.val, h⟩) = argB m c (ix2 n q) := by
  rw [V_bias]
  exact shapeCast_apply _ _ _ (ix2 n q)
    (by rw [Shape.rowMajor_val_two, Shape.rowMajor_val_two]
        show n.val * 32 + q.val = 0 * 256 + (32 * n.val + q.val); omega)

/-! ## The windows' blocks at a grid point -/

/-- The printed index maps over the 128 points: the two row-blocked inputs and the output move with the point, the two
    small operands stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

abbrev xblk (c : Dev nD) (t : Fin cfg0.N) : Vec Ideal S2048x1024 .f32 := iblk m c 0 t
abbrev lblk (c : Dev nD) (t : Fin cfg0.N) : Vec Ideal S2048x1 .i32 := iblk m c 1 t
abbrev wblk (c : Dev nD) (t : Fin cfg0.N) : Vec Ideal S1024x256 .bf16 := iblk m c 2 t
abbrev bblk (c : Dev nD) (t : Fin cfg0.N) : Vec Ideal S1x256 .f32 := iblk m c 3 t

/-- Row `p` of the block of `x` at point `t` is row `2048·t + p` of `x`. -/
theorem xblk_apply (c : Dev nD) (t : Fin cfg0.N) (p : Fin 2048) (k : Fin 1024) (hR : 2048 * t.val + p.val < 262144) :
    xblk m c t (ix2 p k) = argX m c (ix2 ⟨2048 * t.val + p.val, hR⟩ k) := by
  obtain ⟨e0, e1, -⟩ := idx_facts t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 2048 + 1 * p.val = 2048 * t.val + p.val; omega
  | ⟨1, _⟩ => show win0_0.index t (1 : Fin 2) * 1024 + 1 * k.val = k.val; omega

/-- Row `p` of the label block at point `t` is row `2048·t + p` of the label column. -/
theorem lblk_apply (c : Dev nD) (t : Fin cfg0.N) (p : Fin 2048) (hR : 2048 * t.val + p.val < 262144) :
    lblk m c t (ix2 p (0 : Fin 1)) = (V m c main_v1 : S262144x1.Idx → BitVec 32) (ix2 ⟨2048 * t.val + p.val, hR⟩ (0 : Fin 1)) := by
  obtain ⟨-, -, e2, e3, -⟩ := idx_facts t
  show (V m c main_v1 : S262144x1.Idx → BitVec 32) (((cfg0.win 1).blk t).view.emb (ix2 p (0 : Fin 1))) = _
  refine congrArg (V m c main_v1 : S262144x1.Idx → BitVec 32) (funext fun a => Fin.ext ?_)
  match a with
  | ⟨0, _⟩ => show win0_1.index t (0 : Fin 2) * 2048 + 1 * p.val = 2048 * t.val + p.val; omega
  | ⟨1, _⟩ => show win0_1.index t (1 : Fin 2) * 1 + 1 * 0 = 0; omega

/-- The block of the transposed weights is the whole array, at every point. -/
theorem wblk_apply (c : Dev nD) (t : Fin cfg0.N) (k : Fin 1024) (j : Fin 256) :
    wblk m c t (ix2 k j) = (V m c main_v4 : S1024x256.Idx → EReal) (ix2 k j) := by
  obtain ⟨-, -, -, -, e4, e5, -⟩ := idx_facts t
  show (V m c main_v4 : S1024x256.Idx → EReal) (((cfg0.win 2).blk t).view.emb (ix2 k j)) = _
  refine congrArg (V m c main_v4 : S1024x256.Idx → EReal) (funext fun a => Fin.ext ?_)
  match a with
  | ⟨0, _⟩ => show win0_2.index t (0 : Fin 2) * 1024 + 1 * k.val = k.val; omega
  | ⟨1, _⟩ => show win0_2.index t (1 : Fin 2) * 256 + 1 * j.val = j.val; omega

/-- The block of the bias row is the whole row, at every point. -/
theorem bblk_apply (c : Dev nD) (t : Fin cfg0.N) (j : Fin 256) :
    bblk m c t (ix2 (0 : Fin 1) j) = (V m c main_v5 : S1x256.Idx → EReal) (ix2 (0 : Fin 1) j) := by
  obtain ⟨-, -, -, -, -, -, e6, e7, -⟩ := idx_facts t
  show (V m c main_v5 : S1x256.Idx → EReal) (((cfg0.win 3).blk t).view.emb (ix2 (0 : Fin 1) j)) = _
  refine congrArg (V m c main_v5 : S1x256.Idx → EReal) (funext fun a => Fin.ext ?_)
  match a with
  | ⟨0, _⟩ => show win0_3.index t (0 : Fin 2) * 1 + 1 * 0 = 0; omega
  | ⟨1, _⟩ => show win0_3.index t (1 : Fin 2) * 256 + 1 * j.val = j.val; omega

/-! ## What a point writes back, the cover, the array -/

variable (hL : ∀ c : Dev nD, LabelsInRange (argLab m c))
include hL

/-- WHAT POINT `t` WRITES BACK is block `t` of the selected head. -/
theorem flushed_eq (c : Dev nD) (t : Fin cfg0.N) :
    (dats m 0 c).flushed 4 t
      = ((cfg0.win 4).blk t).view.read (Elt Ideal) (selectedHead (argX m c) (argLab m c) (argW m c) (argB m c)) := by
  rw [Cert.KernelIdeal.Value.flushed4]
  funext j
  obtain ⟨p, q, rfl⟩ : ∃ (p : Fin 2048) (q : Fin 32), j = ix2 p q := ⟨j 0, j 1, eq_ix2 j⟩
  have ht : t.val < 128 := by have h := t.isLt; have e : cfg0.N = 128 := N_0; omega
  have hp := p.isLt
  have hq := q.isLt
  have hR : 2048 * t.val + p.val < 262144 := by omega
  obtain ⟨n, hn⟩ := hL c ⟨2048 * t.val + p.val, hR⟩
  have hnq : 32 * n.val + q.val < 256 := by have := n.isLt; omega
  obtain ⟨-, -, -, -, -, -, -, -, e8, e9⟩ := idx_facts t
  have hemb : ((cfg0.win 4).blk t).view.emb (ix2 p q) = (ix2 ⟨2048 * t.val + p.val, hR⟩ q : S262144x32.Idx) :=
    funext fun a => Fin.ext (by
      match a with
      | ⟨0, _⟩ => show win0_4.index t (0 : Fin 2) * 2048 + 1 * p.val = 2048 * t.val + p.val; omega
      | ⟨1, _⟩ => show win0_4.index t (1 : Fin 2) * 32 + 1 * q.val = q.val; omega)
  show out0_4 (xblk m c t) (lblk m c t) (wblk m c t) (bblk m c t) (ix2 p q)
    = selectedHead (argX m c) (argLab m c) (argW m c) (argB m c) (((cfg0.win 4).blk t).view.emb (ix2 p q))
  rw [hemb, out_apply (xblk m c t) (lblk m c t) (wblk m c t) (bblk m c t) p q n
    (by rw [lblk_apply m c t p hR]; exact V_labels_apply m c _ n hn)]
  rw [bblk_apply, V_bias_apply m c n q hnq]
  simp only [xblk_apply m c t p _ hR, wblk_apply, V_wt_apply m c _ n q hnq]
  show _ = (∑ k : Fin 1024, argX m c (ix2 ⟨2048 * t.val + p.val, hR⟩ k)
      * argW m c (ix3 (taskOfWord (argLab m c (ix1 ⟨2048 * t.val + p.val, hR⟩))) q k))
    + argB m c (ix2 (taskOfWord (argLab m c (ix1 ⟨2048 * t.val + p.val, hR⟩))) q)
  rw [hn, taskOfWord_ofNat]

omit hL in
/-- An index of the result array is in point `t`'s block iff each coordinate is in the block's range on its axis. -/
theorem mem_blk (t : Fin cfg0.N) (i : S262144x32.Idx) :
    i ∈ ((cfg0.win 4).blk t).view.set ↔ ∀ a : Fin 2, win0_4.index t a * S2048x32.size a ≤ (i a).val
      ∧ (i a).val < win0_4.index t a * S2048x32.size a + S2048x32.size a := by
  show i ∈ ((View.whole main_v6).slice (win0_4.rect t)).set ↔ _
  rw [View.set_slice_whole, Rect.mem_set_unit]
  exact Iff.rfl

omit hL in
/-- Every index of the result array is in some point's block: row `R` in block `R / 2048`. -/
theorem cover (i : S262144x32.Idx) : ∃ t : Fin cfg0.N, (cfg0.win 4).flush t = true ∧ i ∈ ((cfg0.win 4).blk t).view.set := by
  have hi0 : (i 0).val < 262144 := (i 0).isLt
  have hi1 : (i 1).val < 32 := (i 1).isLt
  obtain ⟨t, ht⟩ : ∃ t : Fin cfg0.N, t.val = (i 0).val / 2048 :=
    ⟨⟨(i 0).val / 2048, by have e : cfg0.N = 128 := N_0; omega⟩, rfl⟩
  obtain ⟨-, -, -, -, -, -, -, -, e8, e9⟩ := idx_facts t
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 32 ≤ (i 1).val ∧ (i 1).val < win0_4.index t (1 : Fin 2) * 32 + 32; omega

/-- THE ARRAY after the run is the selected head. -/
theorem final (c : Dev nD) :
    (dats m 0 c).arrAt 4 cfg0.N = selectedHead (argX m c) (argLab m c) (argW m c) (argB m c) :=
  (dats m 0 c).arrAt_eq_of_cover 4 (selectedHead (argX m c) (argLab m c) (argW m c) (argB m c))
    (fun t _ => flushed_eq m hL c t) cover

/-- THE RUN: every weakly fair execution ends with the result array at the selected head of the argument arrays, the
    arguments unchanged. -/
theorem run : θ_run defs (onTc (τ := τ) (main (F := Ideal))) ⟨m, fun _ => 0, ρ⟩ fun r => ∀ c : Dev nD,
      r.2.mem ((c : Thread nD τ).loc main_v6) = selectedHead (argX m c) (argLab m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hL c), (h c).2⟩)
    (Cert.KernelIdeal.Value.run_blocks m ρ)

end Cert.KernelArray

end
-- ==== Proof.lean ====
/- The proof of `Cert.Claim` (proofs.«401491_j22832046146100_2_alg».proof.Defs).

   THE TWO PROGRAMS. Eight linear heads `W[t] : [32, 1024]`, `b[t] : [32]` and, for each of 262144 rows `x[r]`, a task
   label. The reference applies all eight heads to every row and then takes, per row, the head its label names (a
   batched gather along the task axis, negative labels wrapped, labels outside `[0, 8)` after the wrap answered by a fill value). The kernel clamps the labels into `[0, 7]`, forms one wide product
   `x · WT` with `WT : [1024, 256]` the eight heads side by side, and adds up, over the eight tasks, the task's 32
   lanes plus its bias times the mask `[label = task]`.

   THE CLAIM holds where every label is one of `0, …, 7`, which the precondition states (beside the finiteness of the
   float inputs, which the proof never opens): there the wrap, the fill and the clamp are all the identity, exactly one
   mask is `1`, and on the extended reals `0 · y = 0`, `1 · y = y`, `0 + y = y` for every `y`; so both programs end with
   `out[r, c] = (∑ k, x[r, k] · W[τ, c, k]) + b[τ, c]`, `τ` the row's task (`SelectedHead.selectedHead`): the same sum of the
   same products, in the same order of the factors. Outside that range the two differ (a label `-1` is task `7` to the reference
   and task `0` to the kernel).

   Proof/SelectedHead.lean — the result function, the mask, the masked sum; Proof/LabelRange.lean — the precondition decoded;
   Proof/ReferenceGather.lean — the reference at an index, through its gather's dimension numbers;
   Proof/KernelBlock.lean — one block of the kernel at an index; Proof/KernelArray.lean — the host's layout
   operations, the blocks at a grid point, the cover, the run. The frames are the generated ones; the idealization rewrote
   nothing, so `preserves` is `True`. -/
import proofs.«401491_j22832046146100_2_alg».proof.Defs
import proofs.«401491_j22832046146100_2_alg».proof.Proof.Gen.Kernel
import proofs.«401491_j22832046146100_2_alg».proof.Proof.Gen.Kernel.Skeleton
import proofs.«401491_j22832046146100_2_alg».proof.Proof.Gen.Kernel.Launch
import proofs.«401491_j22832046146100_2_alg».proof.Proof.Gen.Kernel.Points
import proofs.«401491_j22832046146100_2_alg».proof.Proof.Gen.Kernel.Frame
import proofs.«401491_j22832046146100_2_alg».proof.Proof.Gen.KernelIdeal
import proofs.«401491_j22832046146100_2_alg».proof.Proof.Gen.KernelIdeal.Skeleton
import proofs.«401491_j22832046146100_2_alg».proof.Proof.Gen.KernelIdeal.Launch
import proofs.«401491_j22832046146100_2_alg».proof.Proof.Gen.KernelIdeal.Points
import proofs.«401491_j22832046146100_2_alg».proof.Proof.Gen.KernelIdeal.Frame
import proofs.«401491_j22832046146100_2_alg».proof.Proof.Gen.ReferenceIdeal
import proofs.«401491_j22832046146100_2_alg».proof.Proof.Gen.Pre_finite_inputs
import proofs.«401491_j22832046146100_2_alg».proof.Proof.Gen.KernelIdeal.Value
import proofs.«401491_j22832046146100_2_alg».proof.Proof.LabelRange
import proofs.«401491_j22832046146100_2_alg».proof.Proof.ReferenceGather
import proofs.«401491_j22832046146100_2_alg».proof.Proof.KernelArray
import Idealize.ShloMosaic.Adequacy
import Idealize.ShloMosaic.Init

noncomputable section

namespace Cert.Proof

open Idealize.ShloMosaic Idealize.SL.Sem Cert.SelectedHead

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the selected head of the (agreeing) arguments. -/
theorem algebraic : Cert.algebraic_KernelIdeal_ReferenceIdeal := by
  intro m ρ m' ρ' hpre hagree
  have hL : ∀ c : Dev Cert.KernelIdeal.nD, LabelsInRange (Cert.KernelArray.argLab m c) :=
    fun c => Cert.LabelRange.labels_in_range _ _ _ _ (hpre c)
  refine ⟨fun c => selectedHead (Cert.KernelArray.argX m c) (Cert.KernelArray.argLab m c) (Cert.KernelArray.argW m c)
    (Cert.KernelArray.argB m c), Cert.KernelArray.run m ρ hL, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  exact Cert.ReferenceGather.reference_eq (Cert.KernelArray.argLab m c) (hL c) (Cert.KernelArray.argX m c)
    (Cert.KernelArray.argW m c) (Cert.KernelArray.argB m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
